-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S1600000 .f32) (main_arg2 : FVec F S128x128 .f32) (main_arg3 : FVec F S128 .f32) (main_arg4 : FVec F S128x128 .f32) (main_arg5 : FVec F S128 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 27
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .f32⟩
  | .hbm, ⟨25, _⟩ => ⟨S128x128, .f32⟩
  | .hbm, ⟨26, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S128x128, .f32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S128x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Layer.lean ====
/-
  The graph layer both programs compute, as one function of its operand arrays, entry by entry.

  With h the node features, nb the aggregated neighbour features, A and B the two weight matrices already laid
  out as [in, out], and bs, bn the two biases, entry (r, c) of the result is

      ((Σ_k h(r,k)·A(k,c) + bs(c)) + Σ_k nb(r,k)·B(k,c)) + bn(c)

  over the extended reals. The second form, (Σ_k h·A + bs) + (Σ_k nb·B + bn), is the same number: addition of
  extended reals is associative with no side condition, so finiteness of the inputs plays no part.
-/
import Idealize.ShloMosaic.PureOps.Ideal
import Idealize.ShloMosaic.Lib.ValueIdx

noncomputable section

namespace Cert.Sage

open Idealize.ShloMosaic Idealize.ShloMosaic.ValueIdx

/-- Node-feature arrays: 100000 rows of 128 features. -/
abbrev SNodes : Shape := ⟨2, ![100000, 128]⟩
/-- A weight matrix, laid out [in, out]. -/
abbrev SWt : Shape := ⟨2, ![128, 128]⟩
/-- A bias vector. -/
abbrev SBias : Shape := ⟨1, ![128]⟩

/-- Entry (r, c) of the layer's output, the sums grouped from the left. -/
def entry (h nb : SNodes.Idx → EReal) (A B : SWt.Idx → EReal) (bs bn : SBias.Idx → EReal)
    (r : Fin 100000) (c : Fin 128) : EReal :=
  ((∑ k : Fin 128, h (ix2 r k) * A (ix2 k c) + bs (ix1 c)) + ∑ k : Fin 128, nb (ix2 r k) * B (ix2 k c)) + bn (ix1 c)

/-- The same entry with each product-plus-bias grouped first. -/
theorem entry_eq_pair (h nb : SNodes.Idx → EReal) (A B : SWt.Idx → EReal) (bs bn : SBias.Idx → EReal)
    (r : Fin 100000) (c : Fin 128) :
    (∑ k : Fin 128, h (ix2 r k) * A (ix2 k c) + bs (ix1 c)) + (∑ k : Fin 128, nb (ix2 r k) * B (ix2 k c) + bn (ix1 c))
      = entry h nb A B bs bn r c := by
  unfold entry
  rw [add_assoc, add_assoc, add_assoc]

/-- The layer's output array. -/
def layer (h nb : SNodes.Idx → EReal) (A B : SWt.Idx → EReal) (bs bn : SBias.Idx → EReal) : SNodes.Idx → EReal :=
  fun i => entry h nb A B bs bn (i 0) (i 1)

theorem layer_apply (h nb : SNodes.Idx → EReal) (A B : SWt.Idx → EReal) (bs bn : SBias.Idx → EReal)
    (r : Fin 100000) (c : Fin 128) : layer h nb A B bs bn (ix2 r c) = entry h nb A B bs bn r c := rfl

end Cert.Sage

end
-- ==== Proof.Body.lean ====
/-
  What one grid step of the kernel computes, entry by entry.

  The body loads a block of 5000 rows of h and of nb, the two weight matrices and the two biases, and stores

      (h_blk · A + bs) + (nb_blk · B + bn)

  where each product is a matrix product accumulated from zero and each bias is one row repeated down the block.
  Over the extended reals the narrowing of the operands before each product changes nothing, a product into a zero
  accumulator is the plain sum over the 128 contracted features, and the repeated row read at (p, q) is the bias
  at q. So entry (p, q) of the stored block is

      (Σ_k h_blk(p,k)·A(k,q) + bs(q)) + (Σ_k nb_blk(p,k)·B(k,q) + bn(q)).
-/
import proofs.«150303_j6545530159133_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Sage.Body

open Cert.KernelIdeal Cert.KernelIdeal.Gen Idealize.ShloMosaic Idealize.ShloMosaic.ValueIdx

/-! ## The block product's operand indices -/

/-- The left operand's row is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted feature. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted feature. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product accumulated from zero, at entry (p, q): the sum over the 128 contracted features. -/
theorem product_entry (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- A bias laid out as one row and repeated down the block reads, at (p, q), the bias at q. -/
theorem bias_entry (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- Entry (p, q) of the block the body stores. -/
theorem stored_entry (hb nbb : Vec Ideal S5000x128 .f32) (A B : Vec Ideal S128x128 .f32) (bs bn : Vec Ideal S128 .f32)
    (p : Fin 5000) (q : Fin 128) :
    k0_pay1 (F := Ideal) hb A bs nbb B bn (ix2 p q)
      = (∑ k : Fin 128, hb (ix2 p k) * A (ix2 k q) + bs (ix1 q)) + (∑ k : Fin 128, nbb (ix2 p k) * B (ix2 k q) + bn (ix1 q)) := by
  unfold k0_pay1
  show (matmul dot_S5000x128_S128x128_S5000x128_1_0_0_1_n_n none _ _ _ (ix2 p q) + broadcastTo S5000x128 _ _ (ix2 p q))
      + (matmul dot_S5000x128_S128x128_S5000x128_1_0_0_1_n_n none _ _ _ (ix2 p q) + broadcastTo S5000x128 _ _ (ix2 p q)) = _
  rw [product_entry, product_entry, bias_entry, bias_entry]
  simp only [shapeCast_self]
  rfl

end Cert.Sage.Body

end
-- ==== Proof.KernelValue.lean ====
/-
  What the kernel's program leaves in its result array.

  Before the one grid region the host computes nb, the aggregated neighbour features (a gather of rows of h, scaled
  by the edge values, scatter-added by destination row), and the two transposed weight matrices. The region's grid
  has 20 steps; step t reads rows 5000·t … 5000·t + 4999 of h and of nb and the whole of the small operands, and
  writes back rows 5000·t … 5000·t + 4999 of the result. Entry (p, q) of the block a step stores is the layer's
  entry (5000·t + p, q), the two groupings of the four summands being equal by associativity. The 20 row blocks
  tile the 100000 rows, so the result array ends holding the layer of the arrays the region found.
-/
import proofs.«150303_j6545530159133_1_alg».proof.Proof.Gen.KernelIdeal.Value
import proofs.«150303_j6545530159133_1_alg».proof.Proof.Body
import proofs.«150303_j6545530159133_1_alg».proof.Proof.Layer
import Idealize.ShloMosaic.Lib.StableHlo.Run
import Idealize.ShloMosaic.Lib.Pipeline.Value
import Idealize.ShloMosaic.Lib.Tactic

noncomputable section

namespace Cert.Sage.Kern

open Cert.KernelIdeal Cert.KernelIdeal.Gen Cert.KernelIdeal.Value Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## Which block each step reads and writes -/

/-- Step t's row-block index is t for h, nb and the result, and every other block index is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Entry (p, k) of step t's block of the first operand is that array at row 5000·t + p. -/
theorem rows0 (X : S100000x128.Idx → EReal) (t : Fin cfg0.N) (p : Fin 5000) (k : Fin 128) (r : Fin 100000)
    (hr : r.val = t.val * 5000 + p.val) :
    ((((cfg0.win 0).blk t).view.read (Elt Ideal) X) : Vec Ideal S5000x128 .f32) (ix2 p k) = X (ix2 r k) := by
  obtain ⟨e0, e1, -⟩ := idx_facts t
  rw [View.read_apply]
  refine congrArg X ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Entry (p, k) of step t's block of the second operand is that array at row 5000·t + p. -/
theorem rows1 (X : S100000x128.Idx → EReal) (t : Fin cfg0.N) (p : Fin 5000) (k : Fin 128) (r : Fin 100000)
    (hr : r.val = t.val * 5000 + p.val) :
    ((((cfg0.win 1).blk t).view.read (Elt Ideal) X) : Vec Ideal S5000x128 .f32) (ix2 p k) = X (ix2 r k) := by
  obtain ⟨-, -, e0, e1, -⟩ := idx_facts t
  rw [View.read_apply]
  refine congrArg X ?_
  funext a; apply Fin.ext
  match a with
  | ⟨0, _⟩ => show win0_1.index t (0 : Fin 2) * 5000 + 1 * p.val = r.val; omega
  | ⟨1, _⟩ => show win0_1.index t (1 : Fin 2) * 128 + 1 * k.val = k.val; omega

/-- Every step's block of the third operand is the whole matrix. -/
theorem whole2 (X : S128x128.Idx → EReal) (t : Fin cfg0.N) (k q : Fin 128) :
    ((((cfg0.win 2).blk t).view.read (Elt Ideal) X) : Vec Ideal S128x128 .f32) (ix2 k q) = X (ix2 k q) := by
  obtain ⟨-, -, -, -, e0, e1, -⟩ := idx_facts t
  rw [View.read_apply]
  refine congrArg X ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- Every step's block of the fifth operand is the whole matrix. -/
theorem whole4 (X : S128x128.Idx → EReal) (t : Fin cfg0.N) (k q : Fin 128) :
    ((((cfg0.win 4).blk t).view.read (Elt Ideal) X) : Vec Ideal S128x128 .f32) (ix2 k q) = X (ix2 k q) := by
  obtain ⟨-, -, -, -, -, -, -, e0, e1, -⟩ := idx_facts t
  rw [View.read_apply]
  refine congrArg X ?_
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- Every step's block of the fourth operand is the whole vector. -/
theorem whole3 (X : S128.Idx → EReal) (t : Fin cfg0.N) (q : Fin 128) :
    ((((cfg0.win 3).blk t).view.read (Elt Ideal) X) : Vec Ideal S128 .f32) (ix1 q) = X (ix1 q) := by
  obtain ⟨-, -, -, -, -, -, e0, -⟩ := idx_facts t
  rw [View.read_apply]
  refine congrArg X ?_
  funext a; apply Fin.ext
  match a with
  | ⟨0, _⟩ => show win0_3.index t (0 : Fin 1) * 128 + 1 * q.val = q.val; omega

/-- Every step's block of the sixth operand is the whole vector. -/
theorem whole5 (X : S128.Idx → EReal) (t : Fin cfg0.N) (q : Fin 128) :
    ((((cfg0.win 5).blk t).view.read (Elt Ideal) X) : Vec Ideal S128 .f32) (ix1 q) = X (ix1 q) := by
  obtain ⟨-, -, -, -, -, -, -, -, -, e0, -⟩ := idx_facts t
  rw [View.read_apply]
  refine congrArg X ?_
  funext a; apply Fin.ext
  match a with
  | ⟨0, _⟩ => show win0_5.index t (0 : Fin 1) * 128 + 1 * q.val = q.val; omega

/-- Entry (p, q) of step t's block of the result array sits at row 5000·t + p, column q. -/
theorem emb_out (t : Fin cfg0.N) (p : Fin 5000) (q : Fin 128) (r : Fin 100000) (hr : r.val = t.val * 5000 + p.val) :
    ((cfg0.win 6).blk t).view.emb (ix2 p q) = ix2 r q := by
  obtain ⟨-, -, -, -, -, -, -, -, -, -, e0, e1⟩ := idx_facts t
  funext a; apply Fin.ext
  match a with
  | ⟨0, _⟩ => show win0_6.index t (0 : Fin 2) * 5000 + 1 * p.val = r.val; omega
  | ⟨1, _⟩ => show win0_6.index t (1 : Fin 2) * 128 + 1 * q.val = q.val; omega

/-! ## What a step writes back -/

/-- Whatever the six operand arrays hold: entry j of the block step t computes from its blocks of them is the
    layer's entry at the place that entry is written back to. -/
theorem block_entry (X0 X1 : S100000x128.Idx → EReal) (X2 X4 : S128x128.Idx → EReal) (X3 X5 : S128.Idx → EReal)
    (t : Fin cfg0.N) (j : S5000x128.Idx) :
    k0_pay1 (F := Ideal) (((cfg0.win 0).blk t).view.read (Elt Ideal) X0) (((cfg0.win 2).blk t).view.read (Elt Ideal) X2) (((cfg0.win 3).blk t).view.read (Elt Ideal) X3) (((cfg0.win 1).blk t).view.read (Elt Ideal) X1) (((cfg0.win 4).blk t).view.read (Elt Ideal) X4) (((cfg0.win 5).blk t).view.read (Elt Ideal) X5) j
      = layer X0 X1 X2 X4 X3 X5 (((cfg0.win 6).blk t).view.emb j) := by
  obtain ⟨p, q, rfl⟩ : ∃ (p : Fin 5000) (q : Fin 128), j = ix2 p q := ⟨j 0, j 1, eq_ix2 j⟩
  have hN : cfg0.N = 20 := N_0
  have hlt : t.val * 5000 + p.val < 100000 := by have := t.isLt; have := p.isLt; omega
  rw [emb_out t p q ⟨t.val * 5000 + p.val, hlt⟩ rfl]
  refine (Body.stored_entry (((cfg0.win 0).blk t).view.read (Elt Ideal) X0) (((cfg0.win 1).blk t).view.read (Elt Ideal) X1) (((cfg0.win 2).blk t).view.read (Elt Ideal) X2) (((cfg0.win 4).blk t).view.read (Elt Ideal) X4) (((cfg0.win 3).blk t).view.read (Elt Ideal) X3) (((cfg0.win 5).blk t).view.read (Elt Ideal) X5) p q).trans ?_
  rw [layer_apply, ← entry_eq_pair]
  simp only [rows0 X0 t p _ ⟨t.val * 5000 + p.val, hlt⟩ rfl, rows1 X1 t p _ ⟨t.val * 5000 + p.val, hlt⟩ rfl,
    whole2 X2 t, whole4 X4 t, whole3 X3 t, whole5 X5 t]

/-- The layer of the arrays the region finds. -/
abbrev result (c : Dev nD) : S100000x128.Idx → EReal :=
  layer (V m c (Pipeline.arrRef spec0 0)) (V m c (Pipeline.arrRef spec0 1)) (V m c (Pipeline.arrRef spec0 2)) (V m c (Pipeline.arrRef spec0 4)) (V m c (Pipeline.arrRef spec0 3)) (V m c (Pipeline.arrRef spec0 5))

/-- What step t writes back is block t of the layer of the arrays the region finds. -/
theorem flushed_eq (c : Dev nD) (t : Fin cfg0.N) :
    (dats m 0 c).flushed 6 t = ((cfg0.win 6).blk t).view.read (Elt Ideal)
      (layer (V m c (Pipeline.arrRef spec0 0)) (V m c (Pipeline.arrRef spec0 1)) (V m c (Pipeline.arrRef spec0 2)) (V m c (Pipeline.arrRef spec0 4)) (V m c (Pipeline.arrRef spec0 3)) (V m c (Pipeline.arrRef spec0 5))) := by
  rw [Value.flushed6]
  unfold out0_6
  rw [View.canon_unit_zero hz2]
  simp only [View.ld_unit_zero (S := S5000x128) hz2, View.ld_unit_zero (S := S128x128) hz2, View.ld_unit_zero (S := S128) hz1]
  unfold iblk
  generalize (V m c (Pipeline.arrRef spec0 0)) = X0
  generalize (V m c (Pipeline.arrRef spec0 1)) = X1
  generalize (V m c (Pipeline.arrRef spec0 2)) = X2
  generalize (V m c (Pipeline.arrRef spec0 3)) = X3
  generalize (V m c (Pipeline.arrRef spec0 4)) = X4
  generalize (V m c (Pipeline.arrRef spec0 5)) = X5
  funext j
  exact block_entry X0 X1 X2 X4 X3 X5 t j

/-! ## The blocks tile the result array -/

/-- An index of the result array is in step t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v15).slice (win0_6.rect t)).set ↔ _
  rw [View.set_slice_whole, Rect.mem_set_unit]
  exact Iff.rfl

/-- Row r of the result array is written by step r / 5000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := idx_facts ⟨(i 0).val / 5000, ht⟩
  have e0' : win0_6.index ⟨(i 0).val / 5000, ht⟩ (0 : Fin 2) = (i 0).val / 5000 := e0
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    omega

/-- The result array after the run is the layer of the arrays the region finds. -/
theorem final (c : Dev nD) : (dats m 0 c).arrAt 6 cfg0.N = result m c :=
  (dats m 0 c).arrAt_eq_of_cover 6 (result m c) (fun t _ => flushed_eq m c t) covered

/-! ## The arrays the host writes before the region -/

/-- The aggregated neighbour features as a function of the program's arguments: rows of h gathered by source
    node (a negative index wrapped once), scaled by the edge values, scatter-added by destination node into zeros. -/
def nbr (x0 : FVec Ideal S100000x128 .f32) (x1 : FVec Ideal S1600000 .f32) (x6 x7 : IVec S1600000 32) :
    FVec Ideal S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (x6)) (mulf (broadcastInDim S1600000x128 ![0, 1] bcast_S1600000x1_S1600000x128_0_1 (broadcastInDim S1600000x1 ![0] bcast_S1600000_S1600000x1_0 (x1))) (Host.gather gather_S100000x128_S1600000x1_S1600000x128_1_0_n_n_0_1_1128 (x0) (broadcastInDim S1600000x1 ![0] bcast_S1600000_S1600000x1_0 (select (cmpi .slt (x7) (broadcastInDim S1600000 ![] bcast_S_S1600000 (constantI S_ 32 0#32))) (addi (x7) (broadcastInDim S1600000 ![] bcast_S_S1600000 (constantI S_ 32 100000#32))) (x7)))))

/-- A weight matrix transposed to the [in, out] layout. -/
def wT (x : FVec Ideal S128x128 .f32) : FVec Ideal S128x128 .f32 :=
  transpose S128x128 [1, 0] x transposes_S128x128_S128x128_1_0

/-- No host operation writes h: the region finds the argument. -/
theorem found0 (c : Dev nD) : (V m c (Pipeline.arrRef spec0 0)) = (m ((c : Thread nD τ).loc main_arg0)) := V_main_arg0 m c
/-- No host operation writes the self bias. -/
theorem found3 (c : Dev nD) : (V m c (Pipeline.arrRef spec0 3)) = (m ((c : Thread nD τ).loc main_arg3)) := V_main_arg3 m c
/-- No host operation writes the neighbour bias. -/
theorem found5 (c : Dev nD) : (V m c (Pipeline.arrRef spec0 5)) = (m ((c : Thread nD τ).loc main_arg5)) := V_main_arg5 m c

set_option maxHeartbeats 4000000 in
/-- The second operand is the aggregated neighbour features of the arguments. -/
theorem found1 (c : Dev nD) : (V m c (Pipeline.arrRef spec0 1)) = nbr (m ((c : Thread nD τ).loc main_arg0)) (m ((c : Thread nD τ).loc main_arg1)) (m ((c : Thread nD τ).loc main_arg6)) (m ((c : Thread nD τ).loc main_arg7)) := by
  unfold nbr
  dsimp only [Gen.V, Gen.hostOps0]
  after_results_simp

set_option maxHeartbeats 4000000 in
/-- The third operand is the self weights transposed. -/
theorem found2 (c : Dev nD) : (V m c (Pipeline.arrRef spec0 2)) = wT (m ((c : Thread nD τ).loc main_arg2)) := by
  unfold wT
  dsimp only [Gen.V, Gen.hostOps0]
  after_results_simp

set_option maxHeartbeats 4000000 in
/-- The fifth operand is the neighbour weights transposed. -/
theorem found4 (c : Dev nD) : (V m c (Pipeline.arrRef spec0 4)) = wT (m ((c : Thread nD τ).loc main_arg4)) := by
  unfold wT
  dsimp only [Gen.V, Gen.hostOps0]
  after_results_simp

/-- The layer of the arrays the region finds is the layer of the program's arguments. -/
theorem result_eq (c : Dev nD) : result m c = layer (m ((c : Thread nD τ).loc main_arg0))
        (nbr (m ((c : Thread nD τ).loc main_arg0)) (m ((c : Thread nD τ).loc main_arg1)) (m ((c : Thread nD τ).loc main_arg6)) (m ((c : Thread nD τ).loc main_arg7)))
        (wT (m ((c : Thread nD τ).loc main_arg2))) (wT (m ((c : Thread nD τ).loc main_arg4)))
        (m ((c : Thread nD τ).loc main_arg3)) (m ((c : Thread nD τ).loc main_arg5)) := by
  show layer (V m c (Pipeline.arrRef spec0 0)) (V m c (Pipeline.arrRef spec0 1)) (V m c (Pipeline.arrRef spec0 2)) (V m c (Pipeline.arrRef spec0 4)) (V m c (Pipeline.arrRef spec0 3)) (V m c (Pipeline.arrRef spec0 5)) = _
  rw [found0, found1, found2, found3, found4, found5]

/-! ## The run -/

/-- Every weakly fair execution of the kernel's program terminates with the result array at the layer of the
    arguments and the arguments unchanged. -/
theorem run : θ_run defs (onTc (τ := τ) (main (F := Ideal))) ⟨m, fun _ => 0, ρ⟩ fun r => ∀ c : Dev nD,
      r.2.mem ((c : Thread nD τ).loc main_v15) = layer (m ((c : Thread nD τ).loc main_arg0))
        (nbr (m ((c : Thread nD τ).loc main_arg0)) (m ((c : Thread nD τ).loc main_arg1)) (m ((c : Thread nD τ).loc main_arg6)) (m ((c : Thread nD τ).loc main_arg7)))
        (wT (m ((c : Thread nD τ).loc main_arg2))) (wT (m ((c : Thread nD τ).loc main_arg4)))
        (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (result_eq m c)), (h c).2⟩)
    (Value.run_blocks m ρ)

end Cert.Sage.Kern

end
-- ==== Proof.RefLayer.lean ====
/-
  The reference program's result is the layer.

  Read one operation at a time, the reference computes (h·W_selfᵀ + b_self) + nb·W_nbᵀ and then adds b_nb, where nb is
  the scatter-add of the edge messages. Each matrix product read at entry (r, c) is the sum over the 128 contracted
  features, each bias is broadcast along the rows, and the operand indices of those readings are the coordinates
  (r, k), (k, c) and c. That is the layer's entry with the sums grouped from the left, term for term.
-/
import proofs.«150303_j6545530159133_1_alg».proof.Proof.Gen.ReferenceIdeal.Read
import proofs.«150303_j6545530159133_1_alg».proof.Proof.Layer

noncomputable section

namespace Cert.Sage.Ref

open Cert.ReferenceIdeal Cert.ReferenceIdeal.Read Idealize.ShloMosaic Idealize.ShloMosaic.ValueIdx Cert.Sage

/-- The reference's last stage, as a function of its arguments, is the layer applied to the node features, the
    aggregated neighbour features, the two transposed weight matrices and the two biases. -/
theorem result_eq_layer (x0 : S100000x128.Idx → EReal) (x1 : S1600000.Idx → EReal) (x2 : S128x128.Idx → EReal)
    (x3 : S128.Idx → EReal) (x4 : S128x128.Idx → EReal) (x5 : S128.Idx → EReal) (x6 x7 : S1600000.Idx → BitVec 32) :
    val_main_v23 (F := Ideal) x0 x1 x2 x3 x4 x5 x6 x7
      = layer x0 (val_main_v17 (F := Ideal) x0 x1 x6 x7) (val_main_v0 (F := Ideal) x2) (val_main_v18 (F := Ideal) x4) x3 x5 := by
  funext i
  obtain ⟨r, c, rfl⟩ : ∃ (r : Fin 100000) (c : Fin 128), i = ix2 r c := ⟨i 0, i 1, eq_ix2 i⟩
  rw [layer_apply, val_main_v23_apply, val_main_v20_apply, val_main_v4_apply, val_main_v1_apply, val_main_v3_apply,
    val_main_v2_apply, val_main_v19_apply, val_main_v22_apply, val_main_v21_apply]
  have el1 : ∀ k : Fin 128, lidx_main_v1 (ix2 r c) k = ix2 r k := fun k => funext fun a => by
    match a with | ⟨0, _⟩ => rfl | ⟨1, _⟩ => rfl
  have er1 : ∀ k : Fin 128, ridx_main_v1 (ix2 r c) k = ix2 k c := fun k => funext fun a => by
    match a with | ⟨0, _⟩ => rfl | ⟨1, _⟩ => rfl
  have el19 : ∀ k : Fin 128, lidx_main_v19 (ix2 r c) k = ix2 r k := fun k => funext fun a => by
    match a with | ⟨0, _⟩ => rfl | ⟨1, _⟩ => rfl
  have er19 : ∀ k : Fin 128, ridx_main_v19 (ix2 r c) k = ix2 k c := fun k => funext fun a => by
    match a with | ⟨0, _⟩ => rfl | ⟨1, _⟩ => rfl
  have eb3 : idx_main_v2 (idx_main_v3 (ix2 r c)) = ix1 c := funext fun a => by
    match a with | ⟨0, _⟩ => rfl
  have eb5 : idx_main_v21 (idx_main_v22 (ix2 r c)) = ix1 c := funext fun a => by
    match a with | ⟨0, _⟩ => rfl
  simp only [el1, er1, el19, er19, eb3, eb5]
  rfl

end Cert.Sage.Ref

end
-- ==== Proof.lean ====
/-
  A graph-convolution layer, kernel against reference, over the extended reals.

  Both programs first aggregate neighbour features on the host in the same way: nb = scatter-add by destination row
  of edge_val · h[source row]. The reference then forms ((h·W_selfᵀ + b_self) + nb·W_nbᵀ) + b_nb with two whole
  matrix products. The kernel walks the 100000 rows in 20 blocks of 5000 and, per block, forms
  (h_blk·W_selfᵀ + b_self) + (nb_blk·W_nbᵀ + b_nb). Read entry by entry both are

      Σ_k h(r,k)·W_self(c,k) + b_self(c) + Σ_k nb(r,k)·W_nb(c,k) + b_nb(c),

  grouped differently; addition of extended reals is associative without any finiteness condition, so the two
  results agree at every entry whatever the inputs hold. Narrowing the operands of a product is the identity over
  the extended reals, so the kernel's idealization rewrites nothing and has nothing to preserve.

  The three frame claims come from each program's run; the agreement of the two neighbour aggregations and of the
  transposed weights is that of two spellings of one term.
-/
import proofs.«150303_j6545530159133_1_alg».proof.Defs
import proofs.«150303_j6545530159133_1_alg».proof.Proof.Gen.Kernel
import proofs.«150303_j6545530159133_1_alg».proof.Proof.Gen.Kernel.Skeleton
import proofs.«150303_j6545530159133_1_alg».proof.Proof.Gen.Kernel.Launch
import proofs.«150303_j6545530159133_1_alg».proof.Proof.Gen.Kernel.Points
import proofs.«150303_j6545530159133_1_alg».proof.Proof.Gen.Kernel.Frame
import proofs.«150303_j6545530159133_1_alg».proof.Proof.Gen.KernelIdeal
import proofs.«150303_j6545530159133_1_alg».proof.Proof.Gen.KernelIdeal.Skeleton
import proofs.«150303_j6545530159133_1_alg».proof.Proof.Gen.KernelIdeal.Launch
import proofs.«150303_j6545530159133_1_alg».proof.Proof.Gen.KernelIdeal.Points
import proofs.«150303_j6545530159133_1_alg».proof.Proof.Gen.KernelIdeal.Frame
import proofs.«150303_j6545530159133_1_alg».proof.Proof.Gen.KernelIdeal.Value
import proofs.«150303_j6545530159133_1_alg».proof.Proof.Gen.ReferenceIdeal
import proofs.«150303_j6545530159133_1_alg».proof.Proof.Gen.ReferenceIdeal.Run
import proofs.«150303_j6545530159133_1_alg».proof.Proof.Gen.ReferenceIdeal.Read
import proofs.«150303_j6545530159133_1_alg».proof.Proof.Gen.Pre_finite_inputs
import proofs.«150303_j6545530159133_1_alg».proof.Proof.Layer
import proofs.«150303_j6545530159133_1_alg».proof.Proof.Body
import proofs.«150303_j6545530159133_1_alg».proof.Proof.KernelValue
import proofs.«150303_j6545530159133_1_alg».proof.Proof.RefLayer
import Idealize.ShloMosaic.Adequacy
import Idealize.ShloMosaic.Init

noncomputable section

namespace Cert.Proof

open Idealize.ShloMosaic Idealize.ShloMosaic.TcCoe Idealize.SL.Sem

/-- The two programs aggregate neighbour features by the same operations on the same arguments. -/
theorem nbr_agree (x0 : FVec Ideal Cert.KernelIdeal.S100000x128 .f32) (x1 : FVec Ideal Cert.KernelIdeal.S1600000 .f32)
    (x6 x7 : IVec Cert.KernelIdeal.S1600000 32) :
    Cert.ReferenceIdeal.Read.val_main_v17 (F := Ideal) x0 x1 x6 x7 = Cert.Sage.Kern.nbr x0 x1 x6 x7 := rfl

/-- The reference transposes the self weights as the kernel's host prelude does. -/
theorem wself_agree (x : FVec Ideal Cert.KernelIdeal.S128x128 .f32) :
    Cert.ReferenceIdeal.Read.val_main_v0 (F := Ideal) x = Cert.Sage.Kern.wT x := rfl

/-- The reference transposes the neighbour weights as the kernel's host prelude does. -/
theorem wnb_agree (x : FVec Ideal Cert.KernelIdeal.S128x128 .f32) :
    Cert.ReferenceIdeal.Read.val_main_v18 (F := Ideal) x = Cert.Sage.Kern.wT x := rfl

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the layer of the (agreeing) arguments. -/
theorem algebraic : Cert.algebraic_KernelIdeal_ReferenceIdeal := by
  intro m ρ m' ρ' _ hagree
  refine ⟨_, Cert.Sage.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v23_eq, Cert.Sage.Ref.result_eq_layer, a0, a1, a2, a3, a4, a5, a6, a7,
    nbr_agree, wself_agree, wnb_agree]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
